-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S4096x4096 : Shape := ⟨2, ![4096, 4096]⟩
abbrev S4096 : Shape := ⟨1, ![4096]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096x4096 .f32) (main_arg8 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S4096 .f32) (main_arg5 : FVec F S4096x4096 .f32) (main_arg6 : FVec F S4096 .f32) (main_arg7 : FVec F S4096x4096 .f32) (main_arg8 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S8x4096 .f32) (main_arg1 : FVec F S8x4096 .f32) (main_arg2 : FVec F S4096x4096 .f32) (main_arg3 : FVec F S4096x4096 .f32) (main_arg4 : FVec F S4096 .f32) (main_arg5 : FVec F S4096x4096 .f32) (main_arg6 : FVec F S4096 .f32) (main_arg7 : FVec F S4096x4096 .f32) (main_arg8 : FVec F S4096 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S8x4096 : Shape := ⟨2, ![8, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1x256 : Shape := ⟨2, ![1, 256]⟩
abbrev S8x256 : Shape := ⟨2, ![8, 256]⟩

abbrev nBuf : Space → Nat
  | .hbm => 13
  | .vmem => 18
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S8x4096, .f32⟩
  | .local _ .vmem, ⟨0, _⟩ => ⟨S8x4096, .f32⟩
  | .local _ .vmem, ⟨1, _⟩ => ⟨S8x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x256, .f32⟩
  | .local _ .vmem, ⟨7, _⟩ => ⟨S1x256, .f32⟩
  | .local _ .vmem, ⟨8, _⟩ => ⟨S256x4096, .f32⟩
  | .local _ .vmem, ⟨9, _⟩ => ⟨S256x4096, .f32⟩
  | .local _ .vmem, ⟨10, _⟩ => ⟨S1x256, .f32⟩
  | .local _ .vmem, ⟨11, _⟩ => ⟨S1x256, .f32⟩
  | .local _ .vmem, ⟨12, _⟩ => ⟨S256x4096, .f32⟩
  | .local _ .vmem, ⟨13, _⟩ => ⟨S256x4096, .f32⟩
  | .local _ .vmem, ⟨14, _⟩ => ⟨S1x256, .f32⟩
  | .local _ .vmem, ⟨15, _⟩ => ⟨S1x256, .f32⟩
  | .local _ .vmem, ⟨16, _⟩ => ⟨S8x256, .f32⟩
  | .local _ .vmem, ⟨17, _⟩ => ⟨S8x256, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v16 : BitVec 32 := Scalar.muli arg0 c256_i32
  v16
def k0_off1 (i : grid0.Coords) : Fin 2 → Nat :=
  let c0_20 : Index := 0#32
  let arg0 : BitVec 32 := BitVec.ofNat 32 (i 0).val
  let c256_i32 : BitVec 32 := 256#32
  let v16 : BitVec 32 := Scalar.muli arg0 c256_i32
  let v17 : BitVec 32 := v16
  let v18 : Index := Scalar.indexCast v17
  ![0, v18.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4096_S1x4096 : S4096.ShapeCasts S1x4096
  inb_S8x4096_S8x4096_0_0 : ∀ a, (![0, 0] : Fin 2 → Nat) a + S8x4096.size a ≤ S8x4096.size a
  h_S8x4096 : 0 < S8x4096.numel
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S8x256 : 0 < S8x256.numel
  broadcasts_S1x256_S8x256 : S1x256.Broadcasts S8x256
  inb_S8x256_S8x256_0_0 : ∀ a, (![0, 0] : Fin 2 → Nat) a + S8x256.size a ≤ S8x256.size a
  dot_S8x4096_S256x4096_S8x256_1_1_0_0_n_n_wf : DotDims.WF S8x4096 S256x4096 S8x256 [1] [1] [0] [0] [] []
  hrank0 : 0 < grid0.rank
  k0_mult1_dvd : ∀ i : grid0.Coords, 256 ∣ (k0_mult1 i).toNat
  k0_off1_inb : ∀ i : grid0.Coords, ∀ a, (k0_off1 i) a + S8x256.size a ≤ S8x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .f32 = 32 ∨ (Rect.block (s := S4096x4096) S256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x4096.size a
  hwx0_6 : ∀ i : grid0.Coords, EltTy.bits .f32 = 32 ∨ (Rect.block (s := S1x4096) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S4096x4096.size a
  hwx0_7 : ∀ i : grid0.Coords, EltTy.bits .f32 = 32 ∨ (Rect.block (s := S4096x4096) S256x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x4096.size a
  hwx0_8 : ∀ i : grid0.Coords, EltTy.bits .f32 = 32 ∨ (Rect.block (s := S1x4096) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x256.size a ≤ S8x4096.size a
  hwx0_9 : ∀ i : grid0.Coords, EltTy.bits .f32 = 32 ∨ (Rect.block (s := S8x4096) S8x256.size (cc0_transform_9 i) (hinb0_9 i)).WholeWords (EltTy.packing .f32)

variable [Facts₀]

def dot_S8x4096_S256x4096_S8x256_1_1_0_0_n_n : DotDims S8x4096 S256x4096 S8x256 where
  lhsContracting := [1]
  rhsContracting := [1]
  lhsNonContracting := [0]
  rhsNonContracting := [0]
  lhsBatch := []
  rhsBatch := []
  wf := dot_S8x4096_S256x4096_S8x256_1_1_0_0_n_n_wf

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S8x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x4096 : Shape := ⟨2, ![8, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S8x4096, .f32⟩
  | .hbm, ⟨10, _⟩ => ⟨S4096x4096, .f32⟩
  | .hbm, ⟨11, _⟩ => ⟨S8x4096, .f32⟩
  | .hbm, ⟨12, _⟩ => ⟨S8x4096, .f32⟩
  | .hbm, ⟨13, _⟩ => ⟨S1x4096, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S8x4096, .f32⟩
  | .hbm, ⟨18, _⟩ => ⟨S_, .f32⟩
  | .hbm, ⟨19, _⟩ => ⟨S8x4096, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S4096x4096, .f32⟩
  | .hbm, ⟨25, _⟩ => ⟨S8x4096, .f32⟩
  | .hbm, ⟨26, _⟩ => ⟨S8x4096, .f32⟩
  | .hbm, ⟨27, _⟩ => ⟨S1x4096, .f32⟩
  | .hbm, ⟨28, _⟩ => ⟨S8x4096, .f32⟩
  | .hbm, ⟨29, _⟩ => ⟨S8x4096, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .f32⟩
  | .hbm, ⟨35, _⟩ => ⟨S_, .f32⟩
  | .hbm, ⟨36, _⟩ => ⟨S8x4096, .f32⟩
  | .hbm, ⟨37, _⟩ => ⟨S8x4096, .f32⟩
  | .hbm, ⟨38, _⟩ => ⟨S4096x4096, .f32⟩
  | .hbm, ⟨39, _⟩ => ⟨S8x4096, .f32⟩
  | .hbm, ⟨40, _⟩ => ⟨S1x4096, .f32⟩
  | .hbm, ⟨41, _⟩ => ⟨S8x4096, .f32⟩
  | .hbm, ⟨42, _⟩ => ⟨S8x4096, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S8x4096, .f32⟩
  | .hbm, ⟨50, _⟩ => ⟨S8x4096, .f32⟩
  | .hbm, ⟨51, _⟩ => ⟨S8x4096, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  bcast_S_S8x4096 : S_.BroadcastsInDim S8x4096 (![] : Fin 0 → Fin S8x4096.rank)
  dot_S8x4096_S4096x4096_S8x4096_1_1_0_0_n_n_wf : DotDims.WF S8x4096 S4096x4096 S8x4096 [1] [1] [0] [0] [] []
  dot_S8x4096_S4096x4096_S8x4096_1_0_0_1_n_n_wf : DotDims.WF S8x4096 S4096x4096 S8x4096 [1] [0] [0] [1] [] []

variable [Facts₀]

def dot_S8x4096_S4096x4096_S8x4096_1_1_0_0_n_n : DotDims S8x4096 S4096x4096 S8x4096 where
  lhsContracting := [1]
  rhsContracting := [1]
  lhsNonContracting := [0]
  rhsNonContracting := [0]
  lhsBatch := []
  rhsBatch := []
  wf := dot_S8x4096_S4096x4096_S8x4096_1_1_0_0_n_n_wf
def dot_S8x4096_S4096x4096_S8x4096_1_0_0_1_n_n : DotDims S8x4096 S4096x4096 S8x4096 where
  lhsContracting := [1]
  rhsContracting := [0]
  lhsNonContracting := [0]
  rhsNonContracting := [1]
  lhsBatch := []
  rhsBatch := []
  wf := dot_S8x4096_S4096x4096_S8x4096_1_0_0_1_n_n_wf

class Facts : Prop extends Facts₀ where

variable [Facts]
-- ==== Proof.Piece.lean ====
/-
  What one run of the kernel body leaves in its output tile, as a value of the blocks it was given.

  The body makes a single store, which covers the whole tile, so the tile afterwards is that store's payload. Its loads read
  the input blocks whole, except one: the 256 columns of the resident hidden state `h` that lie under the output tile,
  read at column offset 256 · (tile number).
-/
import proofs.«418226_j42820823941243_3_alg».proof.Proof.Gen.KernelIdeal.Frame
import Idealize.ShloMosaic.Lib.Pipeline.Value
import Idealize.ShloMosaic.Lib.Tactic

set_option maxRecDepth 16384

noncomputable section

namespace Cert.Gru.Kern

open Cert.KernelIdeal Cert.KernelIdeal.Gen Idealize.ShloMosaic Idealize.ShloMosaic.TcCoe Idealize.SL.Sem
open Idealize.ShloMosaic.Tactic

variable {F : FTy → Type} [FloatOps F]

theorem zero_offsets : (![0, 0] : Fin 2 → Nat) = fun _ => 0 := funext fun a => by fin_cases a <;> rfl

/-- The columns of the hidden state under the output tile of grid point `i`: what the body's offset load reads of a
    block `x1` holding all of `h`. -/
abbrev hUnder (i : grid0.Coords) (x1 : Vec F S8x4096 .f32) : Vec F S8x256 .f32 :=
  View.ld x1 (Rect.unit (s := S8x4096) (k0_off1 i) S8x256.size (k0_off1_inb i))

/-- The output tile after the body is its one store's payload. -/
theorem out_piece (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S1x256 .f32) (harg5 : arg5.IsWhole) (arg6 : Memref sig .tc .vmem S256x4096 .f32) (harg6 : arg6.IsWhole) (arg7 : Memref sig .tc .vmem S1x256 .f32) (harg7 : arg7.IsWhole) (arg8 : Memref sig .tc .vmem S256x4096 .f32) (harg8 : arg8.IsWhole) (arg9 : Memref sig .tc .vmem S1x256 .f32) (harg9 : arg9.IsWhole) (arg10 : Memref sig .tc .vmem S8x256 .f32) (harg10 : arg10.IsWhole)
    (x0 : Vec F S8x4096 .f32) (x1 : Vec F S8x4096 .f32) (x2 : Vec F S256x4096 .f32) (x3 : Vec F S256x4096 .f32) (x4 : Vec F S1x256 .f32) (x5 : Vec F S256x4096 .f32) (x6 : Vec F S1x256 .f32) (x7 : Vec F S256x4096 .f32) (x8 : Vec F S1x256 .f32) :
    out0_A_9 c i arg1 harg1 arg2 harg2 arg3 harg3 arg4 harg4 arg5 harg5 arg6 harg6 arg7 harg7 arg8 harg8 arg9 harg9 arg10 harg10 x0 x1 x2 x3 x4 x5 x6 x7 x8
      = k0_pay1 (hUnder i x1) (k0_pay3 x0 x1 x2 x5 x6) (k0_pay4 x0 x1 x2 x3 x7 x4 x8) (k0_pay5 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  unfold kernelRun0_A
  dsimp only
  sl_unfold_words
  rw [View.canon_unit_zero zero_offsets]
  simp only [View.readAt_eq_ld, harg1.read_unread, harg2.read_unread, harg3.read_unread, harg4.read_unread, harg5.read_unread, harg6.read_unread, harg7.read_unread, harg8.read_unread, harg9.read_unread,
    View.ld_unit_zero (S := S8x4096) zero_offsets, View.ld_unit_zero (S := S256x4096) zero_offsets, View.ld_unit_zero (S := S1x256) zero_offsets]
  rfl

end Cert.Gru.Kern

end
-- ==== Proof.Spec.lean ====
/-
  The function both programs compute, index by index on the extended reals: one step of a gated recurrent cell
  whose input contribution is the graph aggregation `x · adjᵀ`.

  For a batch row `p` and a node `q`, with `⟨a, w⟩ p q = ∑ k, a[p, k] · w[q, k]` (row `p` of `a` against row `q` of `w`):
    agg = ⟨x, adj⟩ p q
    r   = σ (agg + ⟨h, W_hr⟩ p q + b_hr[q])            -- reset gate
    z   = σ (agg + ⟨h, W_hz⟩ p q + b_hz[q])            -- update gate
    n   = tanh (agg + r · (⟨h, W_hn⟩ p q + b_hn[q]))   -- candidate
    out = (1 − z) · n + z · h[p, q]
  where `σ y = 1 / (1 + e^(−y))` with the extended reals' conventions at `±∞` (`Ideal.logistic`).
  No law of arithmetic is needed between the two programs: they perform these operations in this order, so nothing here
  asks the inputs to be finite.
-/
import Idealize.ShloMosaic.PureOps.Ideal.Laws
import Idealize.ShloMosaic.Lib.ValueIdx
import Idealize.ShloMosaic.Lib.IdealHost

noncomputable section

open scoped BigOperators

namespace Cert.Gru

open Idealize.ShloMosaic Idealize.ShloMosaic.ValueIdx

/-- Activations: batch × nodes. -/
abbrev Act : Shape := ⟨2, ![8, 4096]⟩
/-- A weight matrix (or the adjacency): nodes × nodes. -/
abbrev Mat : Shape := ⟨2, ![4096, 4096]⟩
/-- A bias: one entry per node. -/
abbrev Bias : Shape := ⟨1, ![4096]⟩

/-- The cell on scalars: from the aggregation `agg`, the three projections of the hidden state `hr`, `hz`, `hn`, the three
    biases and the previous hidden value, the new hidden value. The sums associate as written: `(agg + hr) + br`. -/
def cell (agg hr br hz bz hn bn hprev : EReal) : EReal :=
  (1 - Ideal.logistic (agg + hz + bz)) * Ideal.tanh (agg + Ideal.logistic (agg + hr + br) * (hn + bn))
    + Ideal.logistic (agg + hz + bz) * hprev

/-- `(a · wᵀ)[p, q]`: row `p` of `a` against row `q` of `w`. -/
def rowDot (a : Act.Idx → EReal) (w : Mat.Idx → EReal) (p : Fin 8) (q : Fin 4096) : EReal :=
  ∑ k : Fin 4096, a (ix2 p k) * w (ix2 q k)

/-- The cell's new hidden state at batch row `p`, node `q`. -/
def gruAt (x h : Act.Idx → EReal) (adj whr : Mat.Idx → EReal) (bhr : Bias.Idx → EReal) (whz : Mat.Idx → EReal)
    (bhz : Bias.Idx → EReal) (whn : Mat.Idx → EReal) (bhn : Bias.Idx → EReal) (p : Fin 8) (q : Fin 4096) : EReal :=
  cell (rowDot x adj p q) (rowDot h whr p q) (bhr (ix1 q)) (rowDot h whz p q) (bhz (ix1 q)) (rowDot h whn p q) (bhn (ix1 q))
    (h (ix2 p q))

/-- The whole result array. -/
def gru (x h : Act.Idx → EReal) (adj whr : Mat.Idx → EReal) (bhr : Bias.Idx → EReal) (whz : Mat.Idx → EReal)
    (bhz : Bias.Idx → EReal) (whn : Mat.Idx → EReal) (bhn : Bias.Idx → EReal) : Act.Idx → EReal :=
  fun j => gruAt x h adj whr bhr whz bhz whn bhn (j 0) (j 1)

theorem gru_ix2 (x h : Act.Idx → EReal) (adj whr : Mat.Idx → EReal) (bhr : Bias.Idx → EReal) (whz : Mat.Idx → EReal)
    (bhz : Bias.Idx → EReal) (whn : Mat.Idx → EReal) (bhn : Bias.Idx → EReal) (p : Fin 8) (q : Fin 4096) :
    gru x h adj whr bhr whz bhz whn bhn (ix2 p q) = gruAt x h adj whr bhr whz bhz whn bhn p q := rfl

/-- The sigmoid spelt out in the host's operations — negate, exponential, add one, divide one by it — is `σ`. -/
theorem logistic_spelt (y : EReal) : Ideal.div 1 (1 + Ideal.exp (-y)) = Ideal.logistic y := rfl

end Cert.Gru

end
-- ==== Proof.Tile.lean ====
/-
  The kernel body's arithmetic at one entry of its output tile.

  A tile is eight batch rows by 256 nodes. The body multiplies the whole of `x` (and of `h`) against a tile of 256 rows
  of a matrix, contracting both second axes: entry `(b, j)` is row `b` of the activations against row `j` of the tile,
  the sum starting from a zero accumulator. A bias tile is one row of 256 entries, broadcast down the batch. The body then
  forms the cell on these scalars, with the constant one the word `0x3F800000`.
-/
import proofs.«418226_j42820823941243_3_alg».proof.Proof.Gen.KernelIdeal.Skeleton
import proofs.«418226_j42820823941243_3_alg».proof.Proof.Spec
import Idealize.ShloMosaic.Lib.Pipeline.Value
import Idealize.ShloMosaic.Lib.ValueLayout

noncomputable section

open scoped BigOperators

namespace Cert.Gru.Tile

open Cert.KernelIdeal Cert.KernelIdeal.Gen Idealize.ShloMosaic Idealize.ShloMosaic.ValueIdx Cert.Gru

/-- Row `b` of the activations against row `j` of a 256-row tile of a matrix. -/
def tileDot (a : S8x4096.Idx → EReal) (w : S256x4096.Idx → EReal) (b : Fin 8) (j : Fin 256) : EReal :=
  ∑ k : Fin 4096, a (ix2 b k) * w (ix2 j k)

/-! ## Where the matrix product reads its operands -/

theorem lhs_tile_0 (i : S8x256.Idx) (q : dot_S8x4096_S256x4096_S8x256_1_1_0_0_n_n.contr.Idx) :
    (dot_S8x4096_S256x4096_S8x256_1_1_0_0_n_n.lhsIdx i q 0).val = (i 0).val := by
  unfold DotDims.lhsIdx
  rw [dif_neg (show ¬(0 : Fin S8x4096.rank) ∈ dot_S8x4096_S256x4096_S8x256_1_1_0_0_n_n.lhsBatch by decide), dif_pos (show (0 : Fin S8x4096.rank) ∈ dot_S8x4096_S256x4096_S8x256_1_1_0_0_n_n.lhsNonContracting by decide)]
  rfl
theorem lhs_tile_1 (i : S8x256.Idx) (q : dot_S8x4096_S256x4096_S8x256_1_1_0_0_n_n.contr.Idx) :
    (dot_S8x4096_S256x4096_S8x256_1_1_0_0_n_n.lhsIdx i q 1).val = (q ⟨0, by decide⟩).val :=
  dot_S8x4096_S256x4096_S8x256_1_1_0_0_n_n.lhsIdx_val_of_single rfl i q
theorem rhs_tile_0 (i : S8x256.Idx) (q : dot_S8x4096_S256x4096_S8x256_1_1_0_0_n_n.contr.Idx) :
    (dot_S8x4096_S256x4096_S8x256_1_1_0_0_n_n.rhsIdx i q 0).val = (i 1).val := by
  unfold DotDims.rhsIdx
  rw [dif_neg (show ¬(0 : Fin S256x4096.rank) ∈ dot_S8x4096_S256x4096_S8x256_1_1_0_0_n_n.rhsBatch by decide), dif_pos (show (0 : Fin S256x4096.rank) ∈ dot_S8x4096_S256x4096_S8x256_1_1_0_0_n_n.rhsNonContracting by decide)]
  rfl
theorem rhs_tile_1 (i : S8x256.Idx) (q : dot_S8x4096_S256x4096_S8x256_1_1_0_0_n_n.contr.Idx) :
    (dot_S8x4096_S256x4096_S8x256_1_1_0_0_n_n.rhsIdx i q 1).val = (q ⟨0, by decide⟩).val :=
  dot_S8x4096_S256x4096_S8x256_1_1_0_0_n_n.rhsIdx_val_of_single rfl i q

/-- The body's matrix product into a zero accumulator, at an entry: the sum over the contracted axis. -/
theorem matmul_tile_apply (a : FVec Ideal S8x4096 .f32) (w : FVec Ideal S256x4096 .f32) (b : Fin 8) (j : Fin 256) :
    matmul dot_S8x4096_S256x4096_S8x256_1_1_0_0_n_n none a w (constant S8x256 .f32 0x00000000#32) (ix2 b j) = tileDot a w b j := by
  unfold tileDot
  show FloatOps.matmul dot_S8x4096_S256x4096_S8x256_1_1_0_0_n_n none a w (constant S8x256 .f32 0x00000000#32) (ix2 b j) = _
  rw [Ideal.matmul_constant_zero_apply, ← Equiv.sum_comp (ValueIdx.contrEquiv1 dot_S8x4096_S256x4096_S8x256_1_1_0_0_n_n 4096 rfl rfl).symm]
  refine Finset.sum_congr rfl fun k _ => ?_
  have hk := ValueIdx.contrEquiv1_symm_val dot_S8x4096_S256x4096_S8x256_1_1_0_0_n_n 4096 rfl rfl k
  have el : dot_S8x4096_S256x4096_S8x256_1_1_0_0_n_n.lhsIdx (ix2 b j) ((ValueIdx.contrEquiv1 dot_S8x4096_S256x4096_S8x256_1_1_0_0_n_n 4096 rfl rfl).symm k) = ix2 b k := funext fun ax => Fin.ext (by
    match ax with
    | ⟨0, _⟩ => exact lhs_tile_0 _ _
    | ⟨1, _⟩ => exact (lhs_tile_1 _ _).trans hk)
  have er : dot_S8x4096_S256x4096_S8x256_1_1_0_0_n_n.rhsIdx (ix2 b j) ((ValueIdx.contrEquiv1 dot_S8x4096_S256x4096_S8x256_1_1_0_0_n_n 4096 rfl rfl).symm k) = ix2 j k := funext fun ax => Fin.ext (by
    match ax with
    | ⟨0, _⟩ => exact rhs_tile_0 _ _
    | ⟨1, _⟩ => exact (rhs_tile_1 _ _).trans hk)
  rw [el, er]

theorem logistic_at (v : FVec Ideal S8x256 .f32) (i : S8x256.Idx) : logistic v i = Ideal.logistic (v i) := rfl
theorem tanh_at (v : FVec Ideal S8x256 .f32) (i : S8x256.Idx) : tanh v i = Ideal.tanh (v i) := rfl
/-- A bias tile broadcast down the batch reads, in every row, the tile's entry of that column. -/
theorem bias_at (v : S1x256.Idx → EReal) (b : Fin 8) (j : Fin 256) :
    broadcastTo S8x256 v broadcasts_S1x256_S8x256 (ix2 b j) = v (ix2 0 j) :=
  broadcastTo_1b_ab_apply v broadcasts_S1x256_S8x256 b j

/-- The body's value at entry `(b, j)` of the tile, from the blocks it loaded: `hs` the 256 columns of `h` under the tile, `x0`, `x1`
    the whole of `x` and `h`, `x2`, `x3`, `x5`, `x7` the tiles of `adj`, `W_hr`, `W_hz`, `W_hn`, and `x4`, `x6`, `x8` the bias tiles. -/
theorem pay_apply (hs : Vec Ideal S8x256 .f32) (x0 x1 : Vec Ideal S8x4096 .f32) (x2 x3 : Vec Ideal S256x4096 .f32)
    (x4 : Vec Ideal S1x256 .f32) (x5 : Vec Ideal S256x4096 .f32) (x6 : Vec Ideal S1x256 .f32) (x7 : Vec Ideal S256x4096 .f32)
    (x8 : Vec Ideal S1x256 .f32) (b : Fin 8) (j : Fin 256) :
    k0_pay1 hs (k0_pay3 x0 x1 x2 x5 x6) (k0_pay4 x0 x1 x2 x3 x7 x4 x8) (k0_pay5 (F := Ideal)) (ix2 b j)
      = cell (tileDot x0 x2 b j) (tileDot x1 x3 b j) (x4 (ix2 0 j)) (tileDot x1 x5 b j) (x6 (ix2 0 j)) (tileDot x1 x7 b j)
          (x8 (ix2 0 j)) (hs (ix2 b j)) := by
  unfold k0_pay1 k0_pay3 k0_pay4 k0_pay5 k0_pay2
  dsimp only
  simp only [shapeCast_self, addf_apply, mulf_apply, subf_apply, broadcast_apply, logistic_at, tanh_at, matmul_tile_apply,
    bias_at, Ideal.ofBits_def, Ideal.ofBits_one_f32]
  rfl

end Cert.Gru.Tile

end
-- ==== Proof.Tiles.lean ====
/-
  The kernel's result array, index by index, is the cell `Cert.Gru.gru` of the arguments.

  Grid point `t` of sixteen computes the tile of nodes `256·t … 256·t + 255` for all eight batch rows. At that point the windows
  hold: all of `x` and of `h`; rows `256·t …` of `adj`, `W_hr`, `W_hz`, `W_hn` (all 4096 columns); entries `256·t …` of the three
  biases, each first reshaped by the host to one row of 4096; and the body also reads columns `256·t …` of `h`. So row `j` of a matrix tile is
  row `256·t + j` of the matrix, and the tile's entry `(b, j)` is the cell at batch row `b`, node `256·t + j`. The sixteen tiles
  cover the array: node `q` lies in tile `q / 256`.
-/
import proofs.«418226_j42820823941243_3_alg».proof.Proof.Gen.KernelIdeal.Value
import proofs.«418226_j42820823941243_3_alg».proof.Proof.Piece
import proofs.«418226_j42820823941243_3_alg».proof.Proof.Tile
import Idealize.ShloMosaic.Lib.StableHlo.Run
import Idealize.ShloMosaic.Lib.ValueLayout

noncomputable section

open scoped BigOperators

namespace Cert.Gru.Kern

open Cert.KernelIdeal Cert.KernelIdeal.Gen Idealize.ShloMosaic Idealize.ShloMosaic.TcCoe Idealize.SL.Sem
open Idealize.ShloMosaic.ValueIdx Idealize.ShloMosaic.StableHlo Cert.Gru Cert.Gru.Tile
open Idealize.ShloMosaic.Pipeline (Dat)

variable (m : (ℓ : Loc nD τ sig) → Buf (Elt Ideal) ℓ) (ρ : Dev nD → PrngReg)

/-! ## Which block each window holds at a grid point -/

/-- The windows' block indices at point `t`, and the point's grid coordinate, decided over the sixteen points: the resident
    windows stay at block `(0, 0)`, a matrix window is at row block `t`, a bias window and the output at column block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = t.val ∧ win0_5.index t (1 : Fin 2) = 0
    ∧ win0_6.index t (0 : Fin 2) = 0 ∧ win0_6.index t (1 : Fin 2) = t.val
    ∧ win0_7.index t (0 : Fin 2) = t.val ∧ win0_7.index t (1 : Fin 2) = 0
    ∧ win0_8.index t (0 : Fin 2) = 0 ∧ win0_8.index t (1 : Fin 2) = t.val
    ∧ win0_9.index t (0 : Fin 2) = 0 ∧ win0_9.index t (1 : Fin 2) = t.val
    ∧ (grid0.coords t 0).val = t.val :=
  (by decide +kernel : ∀ t : Fin grid0.N, _)

theorem point_lt (t : Fin cfg0.N) : t.val < 16 := lt_of_lt_of_eq t.isLt N_0

/-- Column `j` of tile `t` is node `256 · t + j`. -/
def node (t : Fin cfg0.N) (j : Fin 256) : Fin 4096 :=
  ⟨256 * t.val + j.val, by have := point_lt t; have := j.isLt; omega⟩

/-! ## The blocks, named at their literal types -/

abbrev xB (c : Dev nD) (t : Fin cfg0.N) : Vec Ideal S8x4096 .f32 := iblk m c 0 t
abbrev hB (c : Dev nD) (t : Fin cfg0.N) : Vec Ideal S8x4096 .f32 := iblk m c 1 t
abbrev adjB (c : Dev nD) (t : Fin cfg0.N) : Vec Ideal S256x4096 .f32 := iblk m c 2 t
abbrev whrB (c : Dev nD) (t : Fin cfg0.N) : Vec Ideal S256x4096 .f32 := iblk m c 3 t
abbrev bhrB (c : Dev nD) (t : Fin cfg0.N) : Vec Ideal S1x256 .f32 := iblk m c 4 t
abbrev whzB (c : Dev nD) (t : Fin cfg0.N) : Vec Ideal S256x4096 .f32 := iblk m c 5 t
abbrev bhzB (c : Dev nD) (t : Fin cfg0.N) : Vec Ideal S1x256 .f32 := iblk m c 6 t
abbrev whnB (c : Dev nD) (t : Fin cfg0.N) : Vec Ideal S256x4096 .f32 := iblk m c 7 t
abbrev bhnB (c : Dev nD) (t : Fin cfg0.N) : Vec Ideal S1x256 .f32 := iblk m c 8 t

/-! ## Each block is its array read at the tile's place -/

theorem x_blk (c : Dev nD) (t : Fin cfg0.N) (b : Fin 8) (k : Fin 4096) :
    xB m c t (ix2 b k) = m ((c : Thread nD τ).loc main_arg0) (ix2 b k) := by
  obtain ⟨e00, e01, e10, e11, -⟩ := idx_facts t
  show V m c main_arg0 (((cfg0.win 0).blk t).view.emb (ix2 b k)) = _
  rw [V_main_arg0]
  refine congrArg _ (funext fun a => Fin.ext ?_)
  match a with
  | ⟨0, _⟩ => show win0_0.index t (0 : Fin 2) * 8 + 1 * b.val = b.val; omega
  | ⟨1, _⟩ => show win0_0.index t (1 : Fin 2) * 4096 + 1 * k.val = k.val; omega

theorem h_blk (c : Dev nD) (t : Fin cfg0.N) (b : Fin 8) (k : Fin 4096) :
    hB m c t (ix2 b k) = m ((c : Thread nD τ).loc main_arg1) (ix2 b k) := by
  obtain ⟨e00, e01, e10, e11, -⟩ := idx_facts t
  show V m c main_arg1 (((cfg0.win 1).blk t).view.emb (ix2 b k)) = _
  rw [V_main_arg1]
  refine congrArg _ (funext fun a => Fin.ext ?_)
  match a with
  | ⟨0, _⟩ => show win0_1.index t (0 : Fin 2) * 8 + 1 * b.val = b.val; omega
  | ⟨1, _⟩ => show win0_1.index t (1 : Fin 2) * 4096 + 1 * k.val = k.val; omega

theorem adj_blk (c : Dev nD) (t : Fin cfg0.N) (j : Fin 256) (k : Fin 4096) :
    adjB m c t (ix2 j k) = m ((c : Thread nD τ).loc main_arg2) (ix2 (node t j) k) := by
  obtain ⟨-, -, -, -, e20, e21, e30, e31, -, -, e50, e51, -, -, e70, e71, -⟩ := idx_facts t
  show V m c main_arg2 (((cfg0.win 2).blk t).view.emb (ix2 j k)) = _
  rw [V_main_arg2]
  refine congrArg _ (funext fun a => Fin.ext ?_)
  match a with
  | ⟨0, _⟩ => show win0_2.index t (0 : Fin 2) * 256 + 1 * j.val = 256 * t.val + j.val; omega
  | ⟨1, _⟩ => show win0_2.index t (1 : Fin 2) * 4096 + 1 * k.val = k.val; omega

theorem whr_blk (c : Dev nD) (t : Fin cfg0.N) (j : Fin 256) (k : Fin 4096) :
    whrB m c t (ix2 j k) = m ((c : Thread nD τ).loc main_arg3) (ix2 (node t j) k) := by
  obtain ⟨-, -, -, -, e20, e21, e30, e31, -, -, e50, e51, -, -, e70, e71, -⟩ := idx_facts t
  show V m c main_arg3 (((cfg0.win 3).blk t).view.emb (ix2 j k)) = _
  rw [V_main_arg3]
  refine congrArg _ (funext fun a => Fin.ext ?_)
  match a with
  | ⟨0, _⟩ => show win0_3.index t (0 : Fin 2) * 256 + 1 * j.val = 256 * t.val + j.val; omega
  | ⟨1, _⟩ => show win0_3.index t (1 : Fin 2) * 4096 + 1 * k.val = k.val; omega

theorem whz_blk (c : Dev nD) (t : Fin cfg0.N) (j : Fin 256) (k : Fin 4096) :
    whzB m c t (ix2 j k) = m ((c : Thread nD τ).loc main_arg5) (ix2 (node t j) k) := by
  obtain ⟨-, -, -, -, e20, e21, e30, e31, -, -, e50, e51, -, -, e70, e71, -⟩ := idx_facts t
  show V m c main_arg5 (((cfg0.win 5).blk t).view.emb (ix2 j k)) = _
  rw [V_main_arg5]
  refine congrArg _ (funext fun a => Fin.ext ?_)
  match a with
  | ⟨0, _⟩ => show win0_5.index t (0 : Fin 2) * 256 + 1 * j.val = 256 * t.val + j.val; omega
  | ⟨1, _⟩ => show win0_5.index t (1 : Fin 2) * 4096 + 1 * k.val = k.val; omega

theorem whn_blk (c : Dev nD) (t : Fin cfg0.N) (j : Fin 256) (k : Fin 4096) :
    whnB m c t (ix2 j k) = m ((c : Thread nD τ).loc main_arg7) (ix2 (node t j) k) := by
  obtain ⟨-, -, -, -, e20, e21, e30, e31, -, -, e50, e51, -, -, e70, e71, -⟩ := idx_facts t
  show V m c main_arg7 (((cfg0.win 7).blk t).view.emb (ix2 j k)) = _
  rw [V_main_arg7]
  refine congrArg _ (funext fun a => Fin.ext ?_)
  match a with
  | ⟨0, _⟩ => show win0_7.index t (0 : Fin 2) * 256 + 1 * j.val = 256 * t.val + j.val; omega
  | ⟨1, _⟩ => show win0_7.index t (1 : Fin 2) * 4096 + 1 * k.val = k.val; omega

theorem bhr_blk (c : Dev nD) (t : Fin cfg0.N) (j : Fin 256) :
    bhrB m c t (ix2 0 j) = m ((c : Thread nD τ).loc main_arg4) (ix1 (node t j)) := by
  obtain ⟨-, -, -, -, -, -, -, -, e40, e41, -, -, e60, e61, -, -, e80, e81, -⟩ := idx_facts t
  show V m c main_v0 (((cfg0.win 4).blk t).view.emb (ix2 0 j)) = _
  have e : (V m c main_v0 : S1x4096.Idx → EReal) = shapeCast S1x4096 (m ((c : Thread nD τ).loc main_arg4)) shapeCasts_S4096_S1x4096 := by
    dsimp only [V, hostOps0]; after_results; rfl
  have ei : ((cfg0.win 4).blk t).view.emb (ix2 0 j) = ix2 (0 : Fin 1) (node t j) := funext fun a => Fin.ext (by
    match a with
    | ⟨0, _⟩ => show win0_4.index t (0 : Fin 2) * 1 + 1 * 0 = 0; omega
    | ⟨1, _⟩ => show win0_4.index t (1 : Fin 2) * 256 + 1 * j.val = 256 * t.val + j.val; omega)
  rw [ei, e]
  exact shapeCast_a_1a_apply _ _ 0 (node t j)

theorem bhz_blk (c : Dev nD) (t : Fin cfg0.N) (j : Fin 256) :
    bhzB m c t (ix2 0 j) = m ((c : Thread nD τ).loc main_arg6) (ix1 (node t j)) := by
  obtain ⟨-, -, -, -, -, -, -, -, e40, e41, -, -, e60, e61, -, -, e80, e81, -⟩ := idx_facts t
  show V m c main_v1 (((cfg0.win 6).blk t).view.emb (ix2 0 j)) = _
  have e : (V m c main_v1 : S1x4096.Idx → EReal) = shapeCast S1x4096 (m ((c : Thread nD τ).loc main_arg6)) shapeCasts_S4096_S1x4096 := by
    dsimp only [V, hostOps0]; after_results; rfl
  have ei : ((cfg0.win 6).blk t).view.emb (ix2 0 j) = ix2 (0 : Fin 1) (node t j) := funext fun a => Fin.ext (by
    match a with
    | ⟨0, _⟩ => show win0_6.index t (0 : Fin 2) * 1 + 1 * 0 = 0; omega
    | ⟨1, _⟩ => show win0_6.index t (1 : Fin 2) * 256 + 1 * j.val = 256 * t.val + j.val; omega)
  rw [ei, e]
  exact shapeCast_a_1a_apply _ _ 0 (node t j)

theorem bhn_blk (c : Dev nD) (t : Fin cfg0.N) (j : Fin 256) :
    bhnB m c t (ix2 0 j) = m ((c : Thread nD τ).loc main_arg8) (ix1 (node t j)) := by
  obtain ⟨-, -, -, -, -, -, -, -, e40, e41, -, -, e60, e61, -, -, e80, e81, -⟩ := idx_facts t
  show V m c main_v2 (((cfg0.win 8).blk t).view.emb (ix2 0 j)) = _
  have e : (V m c main_v2 : S1x4096.Idx → EReal) = shapeCast S1x4096 (m ((c : Thread nD τ).loc main_arg8)) shapeCasts_S4096_S1x4096 := by
    dsimp only [V, hostOps0]; after_results; rfl
  have ei : ((cfg0.win 8).blk t).view.emb (ix2 0 j) = ix2 (0 : Fin 1) (node t j) := funext fun a => Fin.ext (by
    match a with
    | ⟨0, _⟩ => show win0_8.index t (0 : Fin 2) * 1 + 1 * 0 = 0; omega
    | ⟨1, _⟩ => show win0_8.index t (1 : Fin 2) * 256 + 1 * j.val = 256 * t.val + j.val; omega)
  rw [ei, e]
  exact shapeCast_a_1a_apply _ _ 0 (node t j)

/-- The body's offset load of the resident hidden state reads the columns under the tile. -/
theorem h_under (c : Dev nD) (t : Fin cfg0.N) (b : Fin 8) (j : Fin 256) :
    hUnder (grid0.coords t) (hB m c t) (ix2 b j) = m ((c : Thread nD τ).loc main_arg1) (ix2 b (node t j)) := by
  obtain ⟨-, -, e10, e11, -, -, -, -, -, -, -, -, -, -, -, -, -, -, -, -, ec⟩ := idx_facts t
  have ho := k0_off1_eq (grid0.coords t)
  have h0 : k0_off1 (grid0.coords t) 0 = 0 := by rw [ho]; rfl
  have h1 : k0_off1 (grid0.coords t) 1 = 256 * (grid0.coords t 0).val := by rw [ho]; rfl
  show V m c main_arg1 (((cfg0.win 1).blk t).view.emb
    ((Rect.unit (s := S8x4096) (k0_off1 (grid0.coords t)) S8x256.size (k0_off1_inb (grid0.coords t))).idx (ix2 b j))) = _
  rw [V_main_arg1]
  refine congrArg _ (funext fun a => Fin.ext ?_)
  match a with
  | ⟨0, _⟩ => show win0_1.index t (0 : Fin 2) * 8 + 1 * (k0_off1 (grid0.coords t) 0 + 1 * b.val) = b.val; omega
  | ⟨1, _⟩ => show win0_1.index t (1 : Fin 2) * 4096 + 1 * (k0_off1 (grid0.coords t) 1 + 1 * j.val) = 256 * t.val + j.val; omega

/-- Row `b` of the activations against row `j` of a matrix tile is that row against row `256·t + j` of the matrix. -/
theorem tile_x_adj (c : Dev nD) (t : Fin cfg0.N) (b : Fin 8) (j : Fin 256) :
    tileDot (xB m c t) (adjB m c t) b j
      = rowDot (m ((c : Thread nD τ).loc main_arg0)) (m ((c : Thread nD τ).loc main_arg2)) b (node t j) :=
  Finset.sum_congr rfl fun k _ => by rw [x_blk, adj_blk]
theorem tile_h_whr (c : Dev nD) (t : Fin cfg0.N) (b : Fin 8) (j : Fin 256) :
    tileDot (hB m c t) (whrB m c t) b j
      = rowDot (m ((c : Thread nD τ).loc main_arg1)) (m ((c : Thread nD τ).loc main_arg3)) b (node t j) :=
  Finset.sum_congr rfl fun k _ => by rw [h_blk, whr_blk]
theorem tile_h_whz (c : Dev nD) (t : Fin cfg0.N) (b : Fin 8) (j : Fin 256) :
    tileDot (hB m c t) (whzB m c t) b j
      = rowDot (m ((c : Thread nD τ).loc main_arg1)) (m ((c : Thread nD τ).loc main_arg5)) b (node t j) :=
  Finset.sum_congr rfl fun k _ => by rw [h_blk, whz_blk]
theorem tile_h_whn (c : Dev nD) (t : Fin cfg0.N) (b : Fin 8) (j : Fin 256) :
    tileDot (hB m c t) (whnB m c t) b j
      = rowDot (m ((c : Thread nD τ).loc main_arg1)) (m ((c : Thread nD τ).loc main_arg7)) b (node t j) :=
  Finset.sum_congr rfl fun k _ => by rw [h_blk, whn_blk]

/-! ## The result array -/

/-- What the result array ends holding on core `c`: the cell of the argument arrays. -/
abbrev result (c : Dev nD) : Buf (Elt Ideal) ((c : Thread nD τ).loc main_v3) :=
  gru (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What the output's staging buffer holds after the body at point `t`: the body's payload of the point's blocks. -/
theorem outs_eq (c : Dev nD) (t : Fin cfg0.N) :
    outsAt0 m c t = k0_pay1 (hUnder (grid0.coords t) (hB m c t))
      (k0_pay3 (xB m c t) (hB m c t) (adjB m c t) (whzB m c t) (bhzB m c t))
      (k0_pay4 (xB m c t) (hB m c t) (adjB m c t) (whrB m c t) (whnB m c t) (bhrB m c t) (bhnB m c t)) (k0_pay5 (F := Ideal)) := by
  unfold outsAt0
  exact out_piece c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t) (iblk m c 7 t) (iblk m c 8 t)

/-- Entry `(b, j)` of output block `t` sits at `(b, 256·t + j)` in the array. -/
theorem out_at (t : Fin cfg0.N) (b : Fin 8) (j : Fin 256) :
    ((cfg0.win 9).blk t).view.emb (ix2 b j) = ix2 b (node t j) := by
  obtain ⟨-, -, -, -, -, -, -, -, -, -, -, -, -, -, -, -, -, -, e90, e91, -⟩ := idx_facts t
  refine funext fun a => Fin.ext ?_
  match a with
  | ⟨0, _⟩ => show win0_9.index t (0 : Fin 2) * 8 + 1 * b.val = b.val; omega
  | ⟨1, _⟩ => show win0_9.index t (1 : Fin 2) * 256 + 1 * j.val = 256 * t.val + j.val; omega

/-- The tile point `t` leaves, at one of its entries, is the cell at that entry's place in the array. -/
theorem tile_at (c : Dev nD) (t : Fin cfg0.N) (y : S8x256.Idx) :
    outsAt0 m c t y = result m c (((cfg0.win 9).blk t).view.emb y) := by
  obtain ⟨b, j, rfl⟩ : ∃ (b : Fin 8) (j : Fin 256), y = ix2 b j := ⟨y 0, y 1, eq_ix2 y⟩
  rw [outs_eq, out_at, pay_apply, tile_x_adj, tile_h_whr, tile_h_whz, tile_h_whn, bhr_blk, bhz_blk, bhn_blk, h_under]
  rfl

/-- What point `t` writes back is block `t` of the cell's array. -/
theorem flushed_eq (c : Dev nD) (t : Fin cfg0.N) :
    (dats m 0 c).flushed 9 t = ((cfg0.win 9).blk t).view.read (Elt Ideal) (result m c) := by
  rw [Value.flushed9]
  funext y
  exact tile_at m c t y

/-- An index of the array is in point `t`'s block iff each coordinate is in the block's range on its axis. -/
theorem mem_blk (t : Fin cfg0.N) (i : S8x4096.Idx) :
    i ∈ ((cfg0.win 9).blk t).view.set ↔ ∀ a : Fin 2, win0_9.index t a * S8x256.size a ≤ (i a).val ∧ (i a).val < win0_9.index t a * S8x256.size a + S8x256.size a := by
  show i ∈ ((View.whole main_v3).slice (win0_9.rect t)).set ↔ _
  rw [View.set_slice_whole, Rect.mem_set_unit]
  exact Iff.rfl

/-- Every index of the array lies in the block of the point its node column belongs to. -/
theorem covered (i : S8x4096.Idx) : ∃ t : Fin cfg0.N, (cfg0.win 9).flush t = true ∧ i ∈ ((cfg0.win 9).blk t).view.set := by
  have hi0 : (i 0).val < 8 := (i 0).isLt
  have hi1 : (i 1).val < 4096 := (i 1).isLt
  let t : Fin cfg0.N := ⟨(i 1).val / 256, lt_of_lt_of_eq (show (i 1).val / 256 < 16 by omega) N_0.symm⟩
  obtain ⟨-, -, -, -, -, -, -, -, -, -, -, -, -, -, -, -, -, -, e90, e91, -⟩ := idx_facts t
  have ht : t.val = (i 1).val / 256 := rfl
  refine ⟨t, flush0_9 t, ?_⟩
  rw [mem_blk]
  intro a
  match a with
  | ⟨0, _⟩ => show win0_9.index t (0 : Fin 2) * 8 ≤ (i 0).val ∧ (i 0).val < win0_9.index t (0 : Fin 2) * 8 + 8; omega
  | ⟨1, _⟩ => show win0_9.index t (1 : Fin 2) * 256 ≤ (i 1).val ∧ (i 1).val < win0_9.index t (1 : Fin 2) * 256 + 256; omega

/-- So the result array ends holding the cell of the arguments. -/
theorem final (c : Dev nD) : (dats m 0 c).arrAt 9 cfg0.N = result m c :=
  (dats m 0 c).arrAt_eq_of_cover 9 (result m c) (fun t _ => flushed_eq m c t) (covered)

/-- The kernel's run: the result array at the cell of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.Gru.Kern

end
-- ==== Proof.RefIsCell.lean ====
/-
  The reference, read one operation at a time, is the cell `Cert.Gru.gru` of its nine arguments.

  Its three hidden-state projections are `h · Wᵀ` through an explicit transpose: entry `(k, q)` of the transposed
  matrix is entry `(q, k)` of `W`, so each is again row `p` of `h` against row `q` of `W`. Its aggregation contracts
  the second axes of `x` and `adj` directly. A bias is broadcast first to one row, then down the batch. The sigmoid is spelt
  `1 / (1 + e^(−y))` in the host's operations, which is `σ` by definition, and the constant one is the word `0x3F800000`.
-/
import proofs.«418226_j42820823941243_3_alg».proof.Proof.Gen.ReferenceIdeal.Read
import proofs.«418226_j42820823941243_3_alg».proof.Proof.Spec

noncomputable section

open scoped BigOperators

namespace Cert.Gru.Ref

open Cert.ReferenceIdeal Cert.ReferenceIdeal.Read Idealize.ShloMosaic Idealize.ShloMosaic.ValueIdx Cert.Gru

variable (p : Fin 8) (q k : Fin 4096)

/-! ## Where each operand is read -/

theorem lhs_agg : lidx_main_v0 (ix2 p q) k = ix2 p k := funext fun a => match a with | ⟨0, _⟩ => rfl | ⟨1, _⟩ => rfl
theorem rhs_agg : ridx_main_v0 (ix2 p q) k = ix2 q k := funext fun a => match a with | ⟨0, _⟩ => rfl | ⟨1, _⟩ => rfl
theorem lhs_hr : lidx_main_v2 (ix2 p q) k = ix2 p k := funext fun a => match a with | ⟨0, _⟩ => rfl | ⟨1, _⟩ => rfl
theorem rhs_hr : idx_main_v1 (ridx_main_v2 (ix2 p q) k) = ix2 q k := funext fun a => match a with | ⟨0, _⟩ => rfl | ⟨1, _⟩ => rfl
theorem lhs_hz : lidx_main_v14 (ix2 p q) k = ix2 p k := funext fun a => match a with | ⟨0, _⟩ => rfl | ⟨1, _⟩ => rfl
theorem rhs_hz : idx_main_v13 (ridx_main_v14 (ix2 p q) k) = ix2 q k := funext fun a => match a with | ⟨0, _⟩ => rfl | ⟨1, _⟩ => rfl
theorem lhs_hn : lidx_main_v26 (ix2 p q) k = ix2 p k := funext fun a => match a with | ⟨0, _⟩ => rfl | ⟨1, _⟩ => rfl
theorem rhs_hn : idx_main_v25 (ridx_main_v26 (ix2 p q) k) = ix2 q k := funext fun a => match a with | ⟨0, _⟩ => rfl | ⟨1, _⟩ => rfl
theorem at_br : idx_main_v4 (idx_main_v5 (ix2 p q)) = ix1 q := funext fun a => match a with | ⟨0, _⟩ => rfl
theorem at_bz : idx_main_v16 (idx_main_v17 (ix2 p q)) = ix1 q := funext fun a => match a with | ⟨0, _⟩ => rfl
theorem at_bn : idx_main_v27 (idx_main_v28 (ix2 p q)) = ix1 q := funext fun a => match a with | ⟨0, _⟩ => rfl

/-! ## The reference is the cell -/

theorem ref_eq (x0 x1 : (⟨S8x4096, .f32⟩ : BufTy).Contents (Elt Ideal)) (x2 x3 : (⟨S4096x4096, .f32⟩ : BufTy).Contents (Elt Ideal))
    (x4 : (⟨S4096, .f32⟩ : BufTy).Contents (Elt Ideal)) (x5 : (⟨S4096x4096, .f32⟩ : BufTy).Contents (Elt Ideal))
    (x6 : (⟨S4096, .f32⟩ : BufTy).Contents (Elt Ideal)) (x7 : (⟨S4096x4096, .f32⟩ : BufTy).Contents (Elt Ideal))
    (x8 : (⟨S4096, .f32⟩ : BufTy).Contents (Elt Ideal)) :
    val_main_v37 (F := Ideal) x0 x1 x2 x3 x4 x5 x6 x7 x8 = gru x0 x1 x2 x3 x4 x5 x6 x7 x8 := by
  funext i
  obtain ⟨p, q, rfl⟩ : ∃ (p : Fin 8) (q : Fin 4096), i = ix2 p q := ⟨i 0, i 1, eq_ix2 i⟩
  rw [gru_ix2]
  simp only [val_main_v37_apply, val_main_v36_apply, val_main_v35_apply, val_main_v34_apply, val_main_v33_apply,
    val_main_cst_3_apply, val_main_v32_apply, val_main_v31_apply, val_main_v30_apply, val_main_v29_apply,
    val_main_v28_apply, val_main_v27_apply, val_main_v26_apply, val_main_v25_apply, val_main_v24_apply,
    val_main_v23_apply, val_main_cst_2_apply, val_main_v22_apply, val_main_v21_apply, val_main_cst_1_apply,
    val_main_v20_apply, val_main_v19_apply, val_main_v18_apply, val_main_v17_apply, val_main_v16_apply,
    val_main_v15_apply, val_main_v14_apply, val_main_v13_apply, val_main_v12_apply, val_main_v11_apply,
    val_main_cst_0_apply, val_main_v10_apply, val_main_v9_apply, val_main_cst_apply, val_main_v8_apply,
    val_main_v7_apply, val_main_v6_apply, val_main_v5_apply, val_main_v4_apply, val_main_v3_apply, val_main_v2_apply,
    val_main_v1_apply, val_main_v0_apply]
  simp only [lhs_agg, rhs_agg, lhs_hr, rhs_hr, lhs_hz, rhs_hz, lhs_hn, rhs_hn, at_br, at_bz, at_bn,
    Ideal.addf_def, Ideal.subf_def, Ideal.mulf_def, Ideal.hostDivf_def, Ideal.hostUnary_exp_def, Ideal.hostUnary_tanh_def,
    Ideal.hostNegf_def, Ideal.negf_def, Ideal.ofBits_def, Ideal.ofBits_one_f32, logistic_spelt]
  rfl

end Cert.Gru.Ref

end
-- ==== Proof.lean ====
/-
  A gated recurrent cell over a graph: `out = (1 − z) · n + z · h` with
  `agg = x · adjᵀ`, `r = σ(agg + h · W_hrᵀ + b_hr)`, `z = σ(agg + h · W_hzᵀ + b_hz)`, `n = tanh(agg + r · (h · W_hnᵀ + b_hn))`,
  for `x`, `h` of eight rows and 4096 nodes.

  The kernel computes the result in sixteen tiles of 256 nodes, each tile from all of `x` and `h` and the 256 matching
  rows of the four matrices; the reference computes whole arrays, transposing the weight matrices explicitly and spelling the
  sigmoid as `1 / (1 + e^(−y))`. Over the extended reals both are the same function of the nine arguments, entry by entry
  (`Cert.Gru.gru`, Proof/Spec.lean): the same products summed over the same 4096 terms, combined by the same operations in the
  same order — so no finiteness of the inputs is used. The kernel's side is Proof/Piece.lean (what a body run leaves),
  Proof/Tile.lean (its arithmetic at an entry) and Proof/Tiles.lean (the tiles assembled into the array); the reference's side
  is Proof/RefIsCell.lean. The frames are the generated ones; the ideal pass rewrote nothing, so `preserves` is trivial.
-/
import proofs.«418226_j42820823941243_3_alg».proof.Defs
import proofs.«418226_j42820823941243_3_alg».proof.Proof.Gen.Kernel
import proofs.«418226_j42820823941243_3_alg».proof.Proof.Gen.Kernel.Skeleton
import proofs.«418226_j42820823941243_3_alg».proof.Proof.Gen.Kernel.Launch
import proofs.«418226_j42820823941243_3_alg».proof.Proof.Gen.Kernel.Points
import proofs.«418226_j42820823941243_3_alg».proof.Proof.Gen.Kernel.Frame
import proofs.«418226_j42820823941243_3_alg».proof.Proof.Gen.KernelIdeal
import proofs.«418226_j42820823941243_3_alg».proof.Proof.Gen.KernelIdeal.Skeleton
import proofs.«418226_j42820823941243_3_alg».proof.Proof.Gen.KernelIdeal.Launch
import proofs.«418226_j42820823941243_3_alg».proof.Proof.Gen.KernelIdeal.Points
import proofs.«418226_j42820823941243_3_alg».proof.Proof.Gen.KernelIdeal.Frame
import proofs.«418226_j42820823941243_3_alg».proof.Proof.Gen.ReferenceIdeal
import proofs.«418226_j42820823941243_3_alg».proof.Proof.Gen.Pre_finite_inputs
import proofs.«418226_j42820823941243_3_alg».proof.Proof.Gen.KernelIdeal.Value
import proofs.«418226_j42820823941243_3_alg».proof.Proof.Gen.ReferenceIdeal.Run
import proofs.«418226_j42820823941243_3_alg».proof.Proof.Gen.ReferenceIdeal.Read
import proofs.«418226_j42820823941243_3_alg».proof.Proof.Tiles
import proofs.«418226_j42820823941243_3_alg».proof.Proof.RefIsCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the cell of the (agreeing) arguments in their result arrays. -/
theorem algebraic : Cert.algebraic_KernelIdeal_ReferenceIdeal := by
  intro m ρ m' ρ' _ hagree
  refine ⟨fun c => Cert.Gru.Kern.result m c, Cert.Gru.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v37_eq, Cert.Gru.Ref.ref_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
